-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144x1 : Shape := ⟨2, ![262144, 1]⟩
abbrev S256x256 : Shape := ⟨2, ![256, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S262144x1 : S_.BroadcastsInDim S262144x1 (![] : Fin 0 → Fin S262144x1.rank)
  reducesTo_S262144x1_S_d0_1 : S262144x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S262144x256 .f32) (main_arg1 : IVec S262144x1 32) (main_arg2 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_c_2 : IVec S_ 32 := constantI S_ 32 0#32
  let main_v9 : IVec S262144x1 32 := broadcastInDim S262144x1 ![] bcast_S_S262144x1 main_c_2
  let main_v10 : IVec S262144x1 1 := cmpi .sge main_arg1 main_v9
  let main_c_3 : IVec S_ 1 := constantI S_ 1 1#1
  let main_v11 : IVec S_ 1 := (fun x v => Host.reduce IntOp.andi x v reducesTo_S262144x1_S_d0_1 h_S_) main_v10 main_c_3
  let main_v12 : IVec S_ 1 := andi main_v8 main_v11
  let main_c_4 : IVec S_ 32 := constantI S_ 32 255#32
  let main_v13 : IVec S262144x1 32 := broadcastInDim S262144x1 ![] bcast_S_S262144x1 main_c_4
  let main_v14 : IVec S262144x1 1 := cmpi .sle main_arg1 main_v13
  let main_c_5 : IVec S_ 1 := constantI S_ 1 1#1
  let main_v15 : IVec S_ 1 := (fun x v => Host.reduce IntOp.andi x v reducesTo_S262144x1_S_d0_1 h_S_) main_v14 main_c_5
  fn_part1 (F := F) main_v12 main_v15
-- ==== Kernel.lean ====
abbrev S262144x256 : Shape := ⟨2, ![262144, 256]⟩
abbrev S262144x1 : Shape := ⟨2, ![262144, 1]⟩
abbrev S256x256 : Shape := ⟨2, ![256, 256]⟩
abbrev S_ : Shape := ⟨0, ![]⟩
abbrev S262144 : Shape := ⟨1, ![262144]⟩
abbrev S4096x256 : Shape := ⟨2, ![4096, 256]⟩
abbrev S4096 : Shape := ⟨1, ![4096]⟩
abbrev S4096x1 : Shape := ⟨2, ![4096, 1]⟩

abbrev nBuf : Space → Nat
  | .hbm => 16
  | .vmem => 7
  | .smem => 0
  | _ => 0

abbrev bufTy : (tb : Table) → Fin (tcTables nBuf tb) → BufTy
  | .hbm, ⟨0, _⟩ => ⟨S262144x256, .f32⟩
  | .hbm, ⟨1, _⟩ => ⟨S262144x1, .i32⟩
  | .hbm, ⟨2, _⟩ => ⟨S256x256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S262144x1, .i32⟩
  | .hbm, ⟨7, _⟩ => ⟨S262144x1, .i32⟩
  | .hbm, ⟨8, _⟩ => ⟨S_, .i32⟩
  | .hbm, ⟨9, _⟩ => ⟨S262144x1, .i32⟩
  | .hbm, ⟨10, _⟩ => ⟨S262144x1, .i32⟩
  | .hbm, ⟨11, _⟩ => ⟨S262144, .i32⟩
  | .hbm, ⟨12, _⟩ => ⟨S256x256, .f32⟩
  | .hbm, ⟨13, _⟩ => ⟨S256x256, .bf16⟩
  | .hbm, ⟨14, _⟩ => ⟨S262144, .f32⟩
  | .hbm, ⟨15, _⟩ => ⟨S262144x1, .f32⟩
  | .local _ .vmem, ⟨0, _⟩ => ⟨S4096x256, .f32⟩
  | .local _ .vmem, ⟨1, _⟩ => ⟨S4096x256, .f32⟩
  | .local _ .vmem, ⟨2, _⟩ => ⟨S4096, .i32⟩
  | .local _ .vmem, ⟨3, _⟩ => ⟨S4096, .i32⟩
  | .local _ .vmem, ⟨4, _⟩ => ⟨S256x256, .bf16⟩
  | .local _ .vmem, ⟨5, _⟩ => ⟨S4096, .f32⟩
  | .local _ .vmem, ⟨6, _⟩ => ⟨S4096, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S262144x1 : S_.BroadcastsInDim S262144x1 (![] : Fin 0 → Fin S262144x1.rank)
  shapeCasts_S262144x1_S262144 : S262144x1.ShapeCasts S262144
  transposes_S256x256_S256x256_1_0 : S256x256.Transposes [1, 0] S256x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S4096x256_d1_w32 : S4096x256.Iotas .tc 32 [1]
  broadcasts_S4096x1_S4096x256 : S4096x1.Broadcasts S4096x256
  reduces_S4096x256_S4096 : S4096x256.Reduces [1] S4096
  shapeCasts_S262144_S262144x1 : S262144.ShapeCasts S262144x1
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S262144.size a
  hwx0_1 : ∀ i : grid0.Coords, EltTy.bits .i32 = 32 ∨ (Rect.block (s := S262144) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S262144.size a
  hwx0_3 : ∀ i : grid0.Coords, EltTy.bits .f32 = 32 ∨ (Rect.block (s := S262144) S4096.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144x1 : Shape := ⟨2, ![262144, 1]⟩
abbrev S256x256 : Shape := ⟨2, ![256, 256]⟩
abbrev S_ : Shape := ⟨0, ![]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x1, .i32⟩
  | .hbm, ⟨2, _⟩ => ⟨S256x256, .f32⟩
  | .hbm, ⟨3, _⟩ => ⟨S262144x256, .f32⟩
  | .hbm, ⟨4, _⟩ => ⟨S_, .i32⟩
  | .hbm, ⟨5, _⟩ => ⟨S262144x1, .i32⟩
  | .hbm, ⟨6, _⟩ => ⟨S262144x1, .i1⟩
  | .hbm, ⟨7, _⟩ => ⟨S_, .i32⟩
  | .hbm, ⟨8, _⟩ => ⟨S262144x1, .i32⟩
  | .hbm, ⟨9, _⟩ => ⟨S262144x1, .i32⟩
  | .hbm, ⟨10, _⟩ => ⟨S262144x1, .i32⟩
  | .hbm, ⟨11, _⟩ => ⟨S262144x1x1, .i32⟩
  | .hbm, ⟨12, _⟩ => ⟨S1, .i32⟩
  | .hbm, ⟨13, _⟩ => ⟨S_, .i32⟩
  | .hbm, ⟨14, _⟩ => ⟨S262144x1x1, .i32⟩
  | .hbm, ⟨15, _⟩ => ⟨S262144x1x1, .i1⟩
  | .hbm, ⟨16, _⟩ => ⟨S1x1x1, .i32⟩
  | .hbm, ⟨17, _⟩ => ⟨S262144x1x1, .i32⟩
  | .hbm, ⟨18, _⟩ => ⟨S262144x1x1, .i1⟩
  | .hbm, ⟨19, _⟩ => ⟨S262144x1x1, .i1⟩
  | .hbm, ⟨20, _⟩ => ⟨S_, .i1⟩
  | .hbm, ⟨21, _⟩ => ⟨S262144x1, .i1⟩
  | .hbm, ⟨22, _⟩ => ⟨S262144x1, .f32⟩
  | .hbm, ⟨23, _⟩ => ⟨S_, .f32⟩
  | .hbm, ⟨24, _⟩ => ⟨S262144x1, .f32⟩
  | .hbm, ⟨25, _⟩ => ⟨S262144x1, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  dot_S262144x256_S256x256_S262144x256_1_1_0_0_n_n_wf : DotDims.WF S262144x256 S256x256 S262144x256 [1] [1] [0] [0] [] []
  gather_S262144x256_S262144x1x1_S262144x1_n_1_0_0_1_2_11_wf : GatherDims.WF S262144x256 S262144x1x1 S262144x1 [] [1] [0] [1] [0] 2 ![1, 1]

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf
def gather_S262144x256_S262144x1x1_S262144x1_n_1_0_0_1_2_11 : GatherDims S262144x256 S262144x1x1 S262144x1 where
  offsetDims := []
  collapsedSliceDims := [1]
  operandBatchingDims := [0]
  startIndicesBatchingDims := [0]
  startIndexMap := [1]
  indexVectorDim := 2
  sliceSizes := ![1, 1]
  wf := gather_S262144x256_S262144x1x1_S262144x1_n_1_0_0_1_2_11_wf

class Facts : Prop extends Facts₀ where

variable [Facts]
-- ==== Proof.Words.lean ====
/-
  Label words in the class range. A 32-bit word w with 0 ≤ w ≤ 255 (read signed) has value below 256; for such a
  word the signed comparisons against 0 and 255 are decided, clamping it to [0, 255] changes nothing, and its signed
  reading is its value.
-/
import Idealize.ShloMosaic.Lib.StableHlo.Predicate

namespace Cert.Pick

open Idealize.ShloMosaic Idealize.ShloMosaic.StableHlo.Predicate

theorem toNat_255 : (255#32 : BitVec 32).toNat = 255 := by decide
theorem toNat_0 : (0#32 : BitVec 32).toNat = 0 := by decide

/-- The signed reading of a word below 256 is its value. -/
theorem toInt_small {w : BitVec 32} (h : w.toNat < 256) : w.toInt = w.toNat :=
  toInt_eq_toNat_of_lt (by omega)

/-- A word below 256 is not negative … -/
theorem slt_zero_small {w : BitVec 32} (h : w.toNat < 256) : IntOp.cmpi .slt w 0#32 = 0#1 := by
  have hn : ¬ IntOp.cmpi .slt w 0#32 = 1#1 := by
    rw [slt_iff_toNat (by omega) (by decide), toNat_0]; omega
  generalize IntOp.cmpi .slt w 0#32 = b at hn
  revert hn; revert b; decide

/-- … it is at least 0 … -/
theorem sge_zero_small {w : BitVec 32} (h : w.toNat < 256) : IntOp.cmpi .sge w 0#32 = 1#1 := by
  rw [sge_iff_toNat (by omega) (by decide), toNat_0]; omega

/-- … and at most 255. -/
theorem sle_255_small {w : BitVec 32} (h : w.toNat < 256) : IntOp.cmpi .sle w 255#32 = 1#1 := by
  rw [sle_iff_toNat (by omega) (by decide), toNat_255]; omega

/-- Conversely the two signed bounds put the value below 256. -/
theorem small_of_bounds {w : BitVec 32} (h0 : IntOp.cmpi .sge w 0#32 = 1#1) (h1 : IntOp.cmpi .sle w 255#32 = 1#1) :
    w.toNat < 256 := by
  unfold IntOp.cmpi at h0 h1
  rw [ofBool_eq_one_iff] at h0 h1
  simp only [BitVec.sle, decide_eq_true_eq] at h0 h1
  have z : (0#32 : BitVec 32).toInt = 0 := by decide
  have t : (255#32 : BitVec 32).toInt = 255 := by decide
  rw [z] at h0; rw [t] at h1
  have hw := w.isLt
  rw [BitVec.toInt_eq_toNat_cond] at h0 h1
  split at h0 <;> omega

/-- Clamping a word below 256 to [0, 255] (the maximum with 0, then the minimum with 255) gives the word back. -/
theorem clip_small {w : BitVec 32} (h : w.toNat < 256) : IntOp.minsi 255#32 (IntOp.maxsi 0#32 w) = w := by
  have hti : w.toInt = w.toNat := toInt_small h
  have z : (0#32 : BitVec 32).toInt = 0 := by decide
  have t : (255#32 : BitVec 32).toInt = 255 := by decide
  have hmax : IntOp.maxsi 0#32 w = w := by
    unfold IntOp.maxsi
    rw [if_neg]
    simp only [BitVec.slt, hti, z, decide_eq_true_eq]; omega
  rw [hmax]
  unfold IntOp.minsi
  rw [if_neg]
  simp only [BitVec.slt, hti, t, decide_eq_true_eq]; omega

end Cert.Pick
-- ==== Proof.PreDecode.lean ====
/-
  The argument condition, read back at one label. The condition is a conjunction of four tests, each a test of every
  element of an array folded by "and" from 1: the rows and the weights are finite, every label is at least 0, every
  label is at most 255 (signed). Its being 1 makes each conjunct 1; a fold by "and" over all elements that is 1 met
  only 1s; the constant a label is compared with is the same scalar at every position. So each label word w has
  0 ≤ w and w ≤ 255 signed, and its value is below 256. The two tests on the float arrays are never looked into.
-/
import proofs.«409447_j35493609734520_3_alg».proof.Pre_finite_inputs
import proofs.«409447_j35493609734520_3_alg».proof.Proof.Words
import Idealize.ShloMosaic.Lib.ReduceAll

noncomputable section

namespace Cert.Pick

open Idealize.ShloMosaic

/-- An array with no axes has one index. -/
instance scalarIdx_subsingleton : Subsingleton Cert.Pre_finite_inputs.S_.Idx := ⟨fun a b => funext fun d => d.elim0⟩

/-- Under the argument condition every label's value is below 256. -/
theorem labels_small [Cert.Pre_finite_inputs.Facts] {F : FTy → Type} [FloatOps F]
    (x : FVec F Cert.Pre_finite_inputs.S262144x256 .f32) (idx : IVec Cert.Pre_finite_inputs.S262144x1 32)
    (W : FVec F Cert.Pre_finite_inputs.S256x256 .f32)
    (h : Cert.Pre_finite_inputs.fn (F := F) x idx W = fun _ => 1#1) :
    ∀ i, (idx i).toNat < 256 := by
  intro i
  have h0 := congrFun h (fun a => a.elim0)
  dsimp only [Cert.Pre_finite_inputs.fn, Cert.Pre_finite_inputs.fn_part1] at h0
  -- the last "and": the first three tests, and the upper bound
  obtain ⟨h12, h15⟩ := IntOp.andi_eq_one.1 h0
  -- the one before: the two float tests, and the lower bound
  obtain ⟨-, h11⟩ := IntOp.andi_eq_one.1 h12
  -- each bound holds at every label, here at i
  have a := Host.reduce_andi_all _ _ _ _ _ h11 i
  have b := Host.reduce_andi_all _ _ _ _ _ h15 i
  -- the compared constant is the scalar 0, respectively 255, at every position
  have a' : IntOp.cmpi .sge (idx i) 0#32 = 1#1 := a
  have b' : IntOp.cmpi .sle (idx i) 255#32 = 1#1 := b
  exact small_of_bounds a' b'

end Cert.Pick

end
-- ==== Proof.Spec.lean ====
/-
  The value both programs compute, stated once over the argument arrays, and the small facts about label
  words that both sides need.

  x is a [262144 × 256] array of rows, W a [256 × 256] array whose row c is the weight vector of class c, and
  idx a [262144 × 1] column of class labels. For row n the result is the inner product of row n of x with
  row idx[n] of W:  out[n] = ∑ k, x[n, k] · W[idx[n], k].  A label word w with 0 ≤ w ≤ 255 names the class
  `col w`; the programs differ only in how they pick that one inner product out of the 256 of the row.
-/
import Idealize.ShloMosaic.PureOps.Ideal
import Idealize.ShloMosaic.Lib.ValueIdx

noncomputable section

open scoped BigOperators

namespace Cert.Pick

open Idealize.ShloMosaic Idealize.ShloMosaic.ValueIdx

/-- The class a label word names: its value, folded into the 256 classes (on a word below 256, the value itself). -/
def col (w : BitVec 32) : Fin 256 := ⟨w.toNat % 256, Nat.mod_lt _ (by decide)⟩

theorem col_val {w : BitVec 32} (h : w.toNat < 256) : (col w).val = w.toNat := Nat.mod_eq_of_lt h

/-- Row `n` of the label column. -/
abbrev lab (n : Fin 262144) : (⟨2, ![262144, 1]⟩ : Shape).Idx := ix2 n (0 : Fin 1)

/-- Every index of the label column is `lab` of its row. -/
theorem eq_lab (i : (⟨2, ![262144, 1]⟩ : Shape).Idx) : i = lab ⟨(i 0).val, idx2_lt0 i⟩ := by
  funext a
  match a with
  | ⟨0, _⟩ => rfl
  | ⟨1, _⟩ => exact Fin.ext (by have := idx2_lt1 i; show (i 1).val = 0; omega)

/-- out[n] = ∑ k, x[n, k] · W[idx[n], k]. -/
def picked (x : (⟨2, ![262144, 256]⟩ : Shape).Idx → EReal) (idx : (⟨2, ![262144, 1]⟩ : Shape).Idx → BitVec 32)
    (W : (⟨2, ![256, 256]⟩ : Shape).Idx → EReal) : (⟨2, ![262144, 1]⟩ : Shape).Idx → EReal :=
  fun i => ∑ k : Fin 256, x (ix2 (⟨(i 0).val, idx2_lt0 i⟩ : Fin 262144) k) * W (ix2 (col (idx i)) k)

/-- Of the 256 terms only the one at the named class is kept: a sum of zeros and one value is that value
    (no finiteness is needed: 0 is the unit of addition on the extended reals). -/
theorem sum_pick (c0 : Fin 256) (f : Fin 256 → EReal) : ∑ c : Fin 256, (if c = c0 then f c else 0) = f c0 := by
  rw [Finset.sum_ite_eq' Finset.univ c0 f, if_pos (Finset.mem_univ _)]

end Cert.Pick

end
-- ==== Proof.Payload.lean ====
/-
  The value the kernel's body stores, read at one row of a block.

  For a block of 4096 rows the body forms, for every row r, the 256 inner products p[r, c] = ∑ k, x[r, k] · Wt[k, c]
  of the row with the columns of the transposed weights; in lane c it keeps p[r, c] when the row's label word equals c
  and 0 otherwise; and it adds the 256 lanes. A label word below 256 equals exactly one lane number, its class, so the
  sum of the lanes is the one inner product at that class:  stored[r] = ∑ k, x[r, k] · Wt[k, label r].

  The steps: the lane sum is a sum over c : Fin 256 (`lane_sum`); the labels, viewed as a column and spread over the lanes,
  read label r at (r, c) (`spread_apply`); the lane counter reads the word of c (`lane_apply`); for a word below 256 the
  comparison with the word of c holds exactly at c = class (`eq_lane_iff`, `pick_lane`); the matrix product into the zero
  accumulator reads the inner product (`prod_apply`); and a sum of 255 zeros and one value is the value (`sum_pick`).
-/
import proofs.«409447_j35493609734520_3_alg».proof.Proof.Gen.KernelIdeal.Skeleton
import proofs.«409447_j35493609734520_3_alg».proof.Proof.Spec
import proofs.«409447_j35493609734520_3_alg».proof.Proof.Words
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Pick

open Idealize.ShloMosaic Idealize.ShloMosaic.ValueIdx Idealize.ShloMosaic.StableHlo.Predicate Cert.KernelIdeal Cert.KernelIdeal.Gen

/-! ## The lane sum -/

/-- The sum over axis 1 of a [4096, 256] array of extended reals reads, at row r, the sum over the 256 lanes of the
    entries (r, c): the index with the lane inserted into the row's index is (r, c). -/
theorem lane_sum (src : FVec Ideal S4096x256 .f32) (hr : S4096x256.Reduces [1] S4096) (hφ : FKind.Formats .f32)
    (hacc : (0x00000000#32 : BitVec 32) = FKind.add.neutral .f32 hφ) (r : Fin 4096) :
    multiReduction (F := Ideal) .add [1] S4096 src 0x00000000#32 hr hφ hacc (ix1 r) = ∑ c : Fin 256, src (ix2 r c) := by
  refine (Ideal.multiReduction_add_single src 0x00000000#32 hr hφ hacc (ix1 r)).trans ?_
  show ∑ c : Fin 256, src (hr.lift (ix1 r) c) = _
  refine Finset.sum_congr rfl fun c _ => congrArg src ?_
  funext a
  apply Fin.ext
  match a with
  | ⟨0, _⟩ => rfl
  | ⟨1, _⟩ => rfl

/-! ## The labels spread over the lanes, and the lane counter -/

/-- A vector of 4096 entries viewed as a column [4096, 1] and spread over 256 lanes reads, at (r, c), its entry r:
    the column's entry (r, 0) has the same row-major position as the vector's entry r, and the spreading keeps the
    row and reads the column's one lane. -/
theorem spread_apply {α : Type} (v : S4096.Idx → α) (h1 : S4096.ShapeCasts S4096) (h2 : S4096.ShapeCasts S4096x1)
    (h3 : S4096x1.Broadcasts S4096x256) (r : Fin 4096) (c : Fin 256) :
    broadcastTo S4096x256 (shapeCast S4096x1 (shapeCast S4096 v h1) h2) h3 (ix2 r c) = v (ix1 r) := by
  rw [shapeCast_self]
  refine (broadcastTo_apply _ h3 (ix2 r c) (ix2 r (0 : Fin 1)) fun a => ?_).trans ?_
  · match a with
    | ⟨0, _⟩ =>
      show r.val = if (4096 : Nat) = 1 then 0 else r.val
      rw [if_neg (by decide)]
    | ⟨1, _⟩ =>
      show 0 = if (1 : Nat) = 1 then 0 else c.val
      rw [if_pos rfl]
  · exact shapeCast_apply v h2 (ix2 r (0 : Fin 1)) (ix1 r) (by
      rw [Shape.rowMajor_val_one, Shape.rowMajor_val_two]
      show r.val = r.val * 1 + 0
      omega)

/-- The counter along axis 1 of a [4096, 256] array reads, at (r, c), the word of c. -/
theorem lane_apply (h : S4096x256.Iotas .tc 32 [1]) (r : Fin 4096) (c : Fin 256) :
    iota .tc S4096x256 32 [1] h (ix2 r c) = BitVec.ofNat 32 c.val :=
  iota_single_apply .tc S4096x256 32 1 h (ix2 r c)

/-! ## Which lane a label keeps -/

/-- A label word below 256 equals the word of lane c exactly when c is the label's class: both are below 2³², so the
    words are equal exactly when the values are. -/
theorem eq_lane_iff {w : BitVec 32} (h : w.toNat < 256) (c : Fin 256) : w = BitVec.ofNat 32 c.val ↔ c = col w := by
  have hc := c.isLt
  have hw := w.isLt
  constructor
  · intro e
    apply Fin.ext
    rw [col_val h, e, BitVec.toNat_ofNat]
    omega
  · intro e
    apply BitVec.eq_of_toNat_eq
    rw [BitVec.toNat_ofNat, e, col_val h]
    omega

/-- So the selection on "label = lane c" keeps its first operand at the label's class and its second elsewhere. -/
theorem pick_lane {α : Type} {w : BitVec 32} (h : w.toNat < 256) (c : Fin 256) (a b : α) :
    Scalar.select (IntOp.cmpi .eq w (BitVec.ofNat 32 c.val)) a b = if c = col w then a else b := by
  by_cases hc : c = col w
  · rw [if_pos hc, cmpi_eq_iff.mpr ((eq_lane_iff h c).mpr hc), select_one]
  · rw [if_neg hc, eq_zero_of_ne_one (fun e => hc ((eq_lane_iff h c).mp (cmpi_eq_iff.mp e))), select_zero]

/-- One lane of the selected array: for labels `lab` reading the word w at (r, c), a counter `cnt` reading the word of c
    there, and products `prod` reading f c there, the selection between the products and the zero splat reads f c at the
    class of w and 0 elsewhere. -/
theorem lane_term (lab cnt : IVec S4096x256 32) (prod : FVec Ideal S4096x256 .f32) (w : BitVec 32) (r : Fin 4096)
    (c : Fin 256) (f : Fin 256 → EReal) (hl : lab (ix2 r c) = w) (hc : cnt (ix2 r c) = BitVec.ofNat 32 c.val)
    (hp : prod (ix2 r c) = f c) (h : w.toNat < 256) :
    select (cmpi .eq lab cnt) prod (broadcast S4096x256 (Scalar.ofBits (F := Ideal) .f32 0x00000000#32)) (ix2 r c)
      = if c = col w then f c else 0 := by
  show Scalar.select (IntOp.cmpi .eq (lab (ix2 r c)) (cnt (ix2 r c))) (prod (ix2 r c)) (Ideal.ofBits .f32 0x00000000#32) = _
  rw [hl, hc, hp, Ideal.ofBits_zero_f32]
  exact pick_lane h c _ _

/-! ## The matrix product at an index -/

section Product

variable [Cert.KernelIdeal.Facts]

/-- The left operand is read at the result's row … -/
theorem lhs_prod_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
/-- … and, on its contracted axis 1, at the contraction position. -/
theorem lhs_prod_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
/-- The right operand is read, on its contracted axis 0, at the contraction position … -/
theorem rhs_prod_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
/-- … and at the result's column. -/
theorem rhs_prod_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product of a [4096, 256] by a [256, 256] array into the zero accumulator reads, at (r, c), the inner product
    of row r of the left with column c of the right. -/
theorem prod_apply (A : FVec Ideal S4096x256 .bf16) (B : FVec Ideal S256x256 .bf16) (r : Fin 4096) (c : Fin 256) :
    matmul dot_S4096x256_S256x256_S4096x256_1_0_0_1_n_n none A B (constant (F := Ideal) S4096x256 .f32 0x00000000#32) (ix2 r c)
      = ∑ k : Fin 256, A (ix2 r k) * B (ix2 k c) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun a => Fin.ext (by
    match a with
    | ⟨0, _⟩ => exact lhs_prod_0 _ _
    | ⟨1, _⟩ => exact (lhs_prod_1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun a => Fin.ext (by
    match a with
    | ⟨0, _⟩ => exact (rhs_prod_0 _ _).trans hk
    | ⟨1, _⟩ => exact rhs_prod_1 _ _)
  rw [el, er]

end Product

/-! ## The stored value at a row -/

/-- stored[r] = ∑ k, x[r, k] · Wt[k, label r], for a label word below 256. -/
theorem pay_apply [Cert.KernelIdeal.Facts]
    (v0 : Vec Ideal Cert.KernelIdeal.S4096x256 .f32) (v2 : Vec Ideal Cert.KernelIdeal.S256x256 .bf16) (v5 : Vec Ideal Cert.KernelIdeal.S4096 .i32)
    (r : Fin 4096) (h : (v5 (ix1 r)).toNat < 256) :
    Cert.KernelIdeal.Gen.k0_pay1 (F := Ideal) v0 v2 v5 (ix1 r) = ∑ k : Fin 256, v0 (ix2 r k) * v2 (ix2 k (Cert.Pick.col (v5 (ix1 r)))) := by
  unfold k0_pay1
  refine (lane_sum _ _ _ _ r).trans ?_
  refine (Finset.sum_congr rfl fun c _ => ?_).trans
    (sum_pick (col (v5 (ix1 r))) fun c => ∑ k : Fin 256, v0 (ix2 r k) * v2 (ix2 k c))
  refine lane_term _ _ _ (v5 (ix1 r)) r c (fun c => ∑ k : Fin 256, v0 (ix2 r k) * v2 (ix2 k c))
    (spread_apply v5 _ _ _ r c) (lane_apply _ r c) ?_ h
  refine (prod_apply _ _ r c).trans (Finset.sum_congr rfl fun k _ => ?_)
  rw [shapeCast_self]
  rfl

end Cert.Pick

end
-- ==== Proof.KernelValue.lean ====
/-
  The kernel's side of the value claim, at the extended reals.

  The kernel walks the rows in 64 blocks of 4096. For row n of block t it forms the 256 inner products of the row
  with the columns of the transposed weights, keeps the one at the row's (clamped) label and adds up the 256 lanes,
  all others being zero. With every label in the class range the clamp is the identity, so the flat output array
  ends at  out[n] = ∑ k, x[n, k] · W[idx[n], k],  and the trailing reshape lays it out as a column.
-/
import proofs.«409447_j35493609734520_3_alg».proof.Proof.Gen.KernelIdeal.Frame
import proofs.«409447_j35493609734520_3_alg».proof.Proof.Spec
import proofs.«409447_j35493609734520_3_alg».proof.Proof.Words
import proofs.«409447_j35493609734520_3_alg».proof.Proof.Payload
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx

namespace Cert.KernelIdeal.PickValue

open Cert.KernelIdeal Cert.KernelIdeal.Gen Cert.Pick

variable (m : (ℓ : Loc nD τ sig) → Buf (Elt Ideal) ℓ) (ρ : Dev nD → PrngReg)

/-! ## What the region finds -/

/-- The label array the region finds: the labels clamped to [0, 255], laid out flat. -/
theorem labels_entry (c : Dev nD) :
    (V m c main_v1 : S262144.Idx → BitVec 32)
      = shapeCast S262144 (minsi (broadcastInDim S262144x1 ![] bcast_S_S262144x1 (constantI S_ 32 255#32))
          (maxsi (broadcastInDim S262144x1 ![] bcast_S_S262144x1 (constantI S_ 32 0#32)) (m ((c : Thread nD τ).loc main_arg1)))) shapeCasts_S262144x1_S262144 := by
  dsimp only [Gen.V, Gen.V0]
  simp only [Gen.hostOps0, Gen.hostOps0_1, Gen.hostOps0_2, List.flatten_cons, List.flatten_nil, List.append_nil, List.cons_append,
    List.nil_append]
  after_results <;> rfl

/-- The weight array the region finds: the weights transposed (the change of float format is the identity here). -/
theorem weights_entry (c : Dev nD) :
    (V m c main_v3 : S256x256.Idx → EReal)
      = truncf (F := Ideal) .bf16 (transpose S256x256 [1, 0] (m ((c : Thread nD τ).loc main_arg2) : S256x256.Idx → EReal) transposes_S256x256_S256x256_1_0) bitsLt_bf16_f32 := by
  dsimp only [Gen.V, Gen.V0]
  simp only [Gen.hostOps0, Gen.hostOps0_1, Gen.hostOps0_2, List.flatten_cons, List.flatten_nil, List.append_nil, List.cons_append,
    List.nil_append]
  after_results <;> rfl

/-- Entry (k, c) of the transposed weights is entry (c, k) of the weights. -/
theorem weights_entry_apply (c : Dev nD) (k cl : Fin 256) :
    (V m c main_v3 : S256x256.Idx → EReal) (ix2 k cl) = (m ((c : Thread nD τ).loc main_arg2) : S256x256.Idx → EReal) (ix2 cl k) := by
  rw [weights_entry]
  show transpose S256x256 [1, 0] (m ((c : Thread nD τ).loc main_arg2) : S256x256.Idx → EReal) transposes_S256x256_S256x256_1_0 (ix2 k cl) = _
  exact transpose_apply [1, 0] _ transposes_S256x256_S256x256_1_0 (ix2 k cl) (ix2 cl k) (fun b => by
    match b with
    | ⟨0, _⟩ => rfl
    | ⟨1, _⟩ => rfl)

/-- With the label of row n in the class range, the flat label array holds it unchanged at n. -/
theorem labels_entry_apply (c : Dev nD) (n : Fin 262144)
    (h : ((m ((c : Thread nD τ).loc main_arg1) : S262144x1.Idx → BitVec 32) (lab n)).toNat < 256) :
    (V m c main_v1 : S262144.Idx → BitVec 32) (ix1 n) = (m ((c : Thread nD τ).loc main_arg1) : S262144x1.Idx → BitVec 32) (lab n) := by
  rw [labels_entry]
  refine (shapeCast_apply _ shapeCasts_S262144x1_S262144 (ix1 n) (lab n) (by
    rw [Shape.rowMajor_val_two, Shape.rowMajor_val_one]
    show n.val * 1 + 0 = n.val
    omega)).trans ?_
  show IntOp.minsi 255#32 (IntOp.maxsi 0#32 _) = _
  exact clip_small h

/-! ## The blocks -/

theorem hz1 : (![0] : Fin 1 → Nat) = fun _ => 0 := funext fun a => by fin_cases a; rfl
theorem hz2 : (![0, 0] : Fin 2 → Nat) = fun _ => 0 := funext fun a => by fin_cases a <;> rfl

/-- Row `4096 t + r` of the whole arrays. -/
abbrev rowAt (t : Fin cfg0.N) (r : Fin 4096) : Fin 262144 := ⟨4096 * t.val + r.val, by
  have ht : t.val < 64 := lt_of_lt_of_eq t.isLt N_0
  have := r.isLt; omega⟩

/-- Where the windows' blocks sit at point t: the row blocks at block t, the weights at their one block. -/
theorem block_index : ∀ t : Fin cfg0.N, win0_0.index t (0 : Fin 2) = t.val ∧ win0_0.index t (1 : Fin 2) = 0
    ∧ win0_1.index t (0 : Fin 1) = t.val
    ∧ win0_2.index t (0 : Fin 2) = 0 ∧ win0_2.index t (1 : Fin 2) = 0
    ∧ win0_3.index t (0 : Fin 1) = t.val :=
  (by decide +kernel : ∀ t : Fin grid0.N, _)

/-- Row r of the x block at point t is row `4096 t + r` of x. -/
theorem xblock_apply (c : Dev nD) (t : Fin cfg0.N) (r : Fin 4096) (k : Fin 256) :
    (iblk m c 0 t : Vec Ideal S4096x256 .f32) (ix2 r k) = (V m c main_arg0 : S262144x256.Idx → EReal) (ix2 (rowAt t r) k) := by
  obtain ⟨e0, e1, -⟩ := block_index t
  unfold iblk
  rw [View.read_apply]
  show V m c main_arg0 _ = V m c main_arg0 _
  congr 1
  funext a
  apply Fin.ext
  match a with
  | ⟨0, _⟩ => show win0_0.index t 0 * 4096 + 1 * r.val = 4096 * t.val + r.val; rw [e0]; omega
  | ⟨1, _⟩ => show win0_0.index t 1 * 256 + 1 * k.val = k.val; rw [e1]; omega

/-- Entry r of the label block at point t is entry `4096 t + r` of the flat labels. -/
theorem lblock_apply (c : Dev nD) (t : Fin cfg0.N) (r : Fin 4096) :
    (iblk m c 1 t : Vec Ideal S4096 .i32) (ix1 r) = (V m c main_v1 : S262144.Idx → BitVec 32) (ix1 (rowAt t r)) := by
  obtain ⟨-, -, e2, -⟩ := block_index t
  unfold iblk
  rw [View.read_apply]
  show V m c main_v1 _ = V m c main_v1 _
  congr 1
  funext a
  apply Fin.ext
  match a with
  | ⟨0, _⟩ => show win0_1.index t 0 * 4096 + 1 * r.val = 4096 * t.val + r.val; rw [e2]; omega

/-- The weight block at every point is the whole transposed weight array. -/
theorem wblock_apply (c : Dev nD) (t : Fin cfg0.N) (k cl : Fin 256) :
    (iblk m c 2 t : Vec Ideal S256x256 .bf16) (ix2 k cl) = (V m c main_v3 : S256x256.Idx → EReal) (ix2 k cl) := by
  obtain ⟨-, -, -, e3, e4, -⟩ := block_index t
  unfold iblk
  rw [View.read_apply]
  show V m c main_v3 _ = V m c main_v3 _
  congr 1
  funext a
  apply Fin.ext
  match a with
  | ⟨0, _⟩ => show win0_2.index t 0 * 256 + 1 * k.val = k.val; rw [e3]; omega
  | ⟨1, _⟩ => show win0_2.index t 1 * 256 + 1 * cl.val = cl.val; rw [e4]; omega

/-- Entry r of the label block at point t, at any index of the block. -/
theorem lblock_at (c : Dev nD) (t : Fin cfg0.N) (y : S4096.Idx) :
    (iblk m c 1 t : Vec Ideal S4096 .i32) y = (V m c main_v1 : S262144.Idx → BitVec 32) (ix1 (rowAt t (y 0))) := by
  have e : y = ix1 (y 0) := eq_ix1 y
  rw [e]
  exact lblock_apply m c t (y 0)

/-! ## The flat output array -/

/-- out[n] as the kernel forms it, over the arrays the region finds: row n of x against column label[n] of the
    transposed weights. -/
def flat (X : S262144x256.Idx → EReal) (I : S262144.Idx → BitVec 32) (WT : S256x256.Idx → EReal) : S262144.Idx → EReal :=
  fun j => ∑ k : Fin 256, X (ix2 (⟨(j 0).val, (j 0).isLt⟩ : Fin 262144) k) * WT (ix2 k (col (I j)))

/-- The stored value at an index of the block, for a label in the class range. -/
theorem pay_at (x0 : Vec Ideal S4096x256 .f32) (x2 : Vec Ideal S256x256 .bf16) (x1 : Vec Ideal S4096 .i32) (y : S4096.Idx)
    (h : (x1 y).toNat < 256) :
    k0_pay1 (F := Ideal) x0 x2 x1 y = ∑ k : Fin 256, x0 (ix2 (⟨(y 0).val, (y 0).isLt⟩ : Fin 4096) k) * x2 (ix2 k (col (x1 y))) := by
  obtain ⟨r, rfl⟩ : ∃ r : Fin 4096, y = ix1 r := ⟨y 0, eq_ix1 y⟩
  exact pay_apply x0 x2 x1 r h

/-- What point t writes back is block t of the flat output. -/
theorem flushed_eq (c : Dev nD)
    (hsmall : ∀ n : Fin 262144, ((V m c main_v1 : S262144.Idx → BitVec 32) (ix1 n)).toNat < 256) (t : Fin cfg0.N) :
    (dats m 0 c).flushed 3 t
      = ((cfg0.win 3).blk t).view.read (Elt Ideal) (flat (V m c main_arg0) (V m c main_v1) (V m c main_v3)) := by
  show (cfg0.win 3).cut (grid0.coords t) ((dats m 0 c).after 3 t) = _
  rw [after0_3]
  unfold out0_3
  rw [View.canon_unit_zero hz1]
  simp only [View.ld_unit_zero (S := S4096x256) hz2, View.ld_unit_zero (S := S256x256) hz2, View.ld_unit_zero (S := S4096) hz1]
  obtain ⟨-, -, -, -, -, e5⟩ := block_index t
  funext y
  show k0_pay1 (F := Ideal) (iblk m c 0 t) (iblk m c 2 t) (iblk m c 1 t) y
      = flat (V m c main_arg0) (V m c main_v1) (V m c main_v3) (((cfg0.win 3).blk t).view.emb y)
  have hemb : ((cfg0.win 3).blk t).view.emb y = ix1 (rowAt t (y 0)) := by
    funext a
    apply Fin.ext
    match a with
    | ⟨0, _⟩ => show win0_3.index t 0 * 4096 + 1 * (y 0).val = 4096 * t.val + (y 0).val; rw [e5]; omega
  rw [hemb]
  have hl := lblock_at m c t y
  refine (pay_at _ _ _ y (by rw [hl]; exact hsmall _)).trans ?_
  unfold flat
  rw [hl]
  refine Finset.sum_congr rfl fun k _ => ?_
  rw [xblock_apply m c t ⟨(y 0).val, (y 0).isLt⟩ k, wblock_apply]

/-- Every entry of the flat output lies in the block of the point that owns its row: entry n in block n / 4096. -/
theorem covered (i : S262144.Idx) :
    ∃ t : Fin cfg0.N, (cfg0.win 3).flush t = true ∧ i ∈ ((cfg0.win 3).blk t).view.set := by
  have hi : (i 0).val < 262144 := (i 0).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, -, e5⟩ := block_index t
  refine ⟨t, flush0_3 t, ?_⟩
  show i ∈ ((View.whole main_v4).slice (win0_3.rect t)).set
  rw [View.set_slice_whole, Rect.mem_set_unit]
  intro a
  match a with
  | ⟨0, _⟩ =>
    show win0_3.index t 0 * 4096 ≤ (i 0).val ∧ (i 0).val < win0_3.index t 0 * 4096 + 4096
    rw [e5, ht]; omega

/-- So the flat output array ends at `flat` of what the region found. -/
theorem final (c : Dev nD)
    (hsmall : ∀ n : Fin 262144, ((V m c main_v1 : S262144.Idx → BitVec 32) (ix1 n)).toNat < 256) :
    (dats m 0 c).arrAt 3 cfg0.N = flat (V m c main_arg0) (V m c main_v1) (V m c main_v3) :=
  (dats m 0 c).arrAt_eq_of_cover 3 (flat (V m c main_arg0) (V m c main_v1) (V m c main_v3))
    (fun t _ => flushed_eq m c hsmall t) covered

/-! ## The result -/

/-- The trailing reshape lays the flat output out as a column. -/
theorem result_eq (c : Dev nD)
    (hsmall : ∀ n : Fin 262144, ((V m c main_v1 : S262144.Idx → BitVec 32) (ix1 n)).toNat < 256) :
    (Pipeline.afterTail₀ cfgs (dats m) 0 (V0 m) [hostOps1] c main_v5 : S262144x1.Idx → EReal)
      = shapeCast S262144x1 (flat (V m c main_arg0) (V m c main_v1) (V m c main_v3)) shapeCasts_S262144_S262144x1 := by
  unfold Pipeline.afterTail₀
  show StableHlo.after hostOps1 _ (Proc.devRef .tc main_v5) = _
  after_results
  have hw : Pipeline.withArrays spec0 c (V0 m c) (fun w => (dats m 0 c).arrAt w cfg0.N) (Proc.devRef .tc main_v4)
      = flat (V m c main_arg0) (V m c main_v1) (V m c main_v3) :=
    (Pipeline.withArrays_arr spec0 launch0.win.arr_inj c _ _ 3).trans (final m c hsmall)
  rw [hw]
  rfl

/-- With every label in the class range, that column is out[n] = ∑ k, x[n, k] · W[idx[n], k] of the arguments:
    the region finds x as launched, the labels unchanged by the clamp, and the weights transposed. -/
theorem column_eq (c : Dev nD)
    (hpre : ∀ i, ((m ((c : Thread nD τ).loc main_arg1) : S262144x1.Idx → BitVec 32) i).toNat < 256) :
    shapeCast S262144x1 (flat (V m c main_arg0) (V m c main_v1) (V m c main_v3)) shapeCasts_S262144_S262144x1
      = picked (m ((c : Thread nD τ).loc main_arg0)) (m ((c : Thread nD τ).loc main_arg1)) (m ((c : Thread nD τ).loc main_arg2)) := by
  funext i
  refine (shapeCast_apply _ shapeCasts_S262144_S262144x1 i (ix1 (⟨(i 0).val, idx2_lt0 i⟩ : Fin 262144)) (by
    rw [Shape.rowMajor_val_one, Shape.rowMajor_val_two]
    have := idx2_lt1 i
    show (i 0).val = (i 0).val * 1 + (i 1).val
    omega)).trans ?_
  unfold flat picked
  have hi : (m ((c : Thread nD τ).loc main_arg1) : S262144x1.Idx → BitVec 32) i
      = (m ((c : Thread nD τ).loc main_arg1) : S262144x1.Idx → BitVec 32) (lab ⟨(i 0).val, idx2_lt0 i⟩) :=
    congrArg _ (eq_lab i)
  rw [hi, labels_entry_apply m c _ (hpre _), V_main_arg0 m c]
  refine Finset.sum_congr rfl fun k _ => ?_
  rw [weights_entry_apply]

/-- The run of the idealized kernel, read: under the label range the result column is `picked` of the arguments,
    and the arguments end as launched. -/
theorem run (hpre : ∀ (c : Dev nD) i, ((m ((c : Thread nD τ).loc main_arg1) : S262144x1.Idx → BitVec 32) i).toNat < 256) :
    θ_run defs (onTc (τ := τ) (main (F := Ideal))) ⟨m, fun _ => 0, ρ⟩ fun r => ∀ c : Dev nD,
      r.2.mem ((c.tc : Thread nD τ).loc main_v5)
        = picked (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v5 (Pipeline.mem_restRefs_of main_v5 (by decide) (by decide))).trans
        ((result_eq m c (fun n => by rw [labels_entry_apply m c n (hpre c _)]; exact hpre c _)).trans (column_eq m c (hpre c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.PickValue

end
-- ==== Proof.RefValue.lean ====
/-
  The reference program's value. The reference forms all 256 inner products of a row of x with the rows of W, then
  takes, in each row, the one its label names (a take along the class axis). Its label is first normalized the way
  a take normalizes an index: a negative label has 256 added, a label outside [0, 255] after that yields a
  not-a-number instead of a product, and the start of the read is clamped to [0, 255]. For labels already in
  [0, 255] none of this changes anything: the in-range test passes, the clamp is the identity, and the value read is
  the inner product of the row with row idx[n] of W.
-/
import proofs.«409447_j35493609734520_3_alg».proof.Proof.RefRead
import proofs.«409447_j35493609734520_3_alg».proof.Proof.Spec
import proofs.«409447_j35493609734520_3_alg».proof.Proof.Words

noncomputable section

open scoped BigOperators

namespace Cert.Pick

open Cert.ReferenceIdeal Cert.ReferenceIdeal.Gen Cert.ReferenceIdeal.ReadP Idealize.ShloMosaic Idealize.ShloMosaic.ValueIdx
  Idealize.ShloMosaic.StableHlo

/-! ## The normalized label -/

/-- A label in the class range is not negative, so adding 256 to negative labels leaves it alone. -/
theorem v4_small (idx : (⟨S262144x1, .i32⟩ : BufTy).Contents (Elt Ideal)) (i : S262144x1.Idx)
    (h : (idx i).toNat < 256) : val_main_call0_v4 (F := Ideal) idx i = idx i := by
  rw [val_main_call0_v4_apply, val_main_call0_v1_apply, val_main_call0_v0_apply, val_main_call0_c_apply,
    slt_zero_small h, select_zero]

/-- The in-range test (0 ≤ label ≤ 255) passes at every entry. -/
theorem v11_small (idx : (⟨S262144x1, .i32⟩ : BufTy).Contents (Elt Ideal)) (h : ∀ i, (idx i).toNat < 256)
    (i : S262144x1x1.Idx) : val_main_call0_v11 (F := Ideal) idx i = 1#1 := by
  rw [val_main_call0_v11_apply, val_main_call0_v7_apply, val_main_call0_v10_apply, val_main_call0_v5_apply,
    v4_small idx _ (h _), val_main_call0_v6_apply, val_main_call0_c_2_apply, val_main_call0_v9_apply,
    val_main_call0_v8_apply, val_main_call0_c_1_apply, sge_zero_small (h _), sle_255_small (h _)]
  decide

/-- A conjunction of trues, from true, is true. -/
theorem foldl_andi_one {ι : Type} (l : List ι) :
    l.foldl (fun r _ => IntOp.andi r 1#1) (1#1 : BitVec 1) = 1#1 := by
  induction l with
  | nil => rfl
  | cons a l ih =>
    rw [List.foldl_cons, show IntOp.andi (1#1 : BitVec 1) 1#1 = 1#1 by decide]
    exact ih

/-- The in-range test reduced over the (one-entry) last axis is true in every row. -/
theorem v12_small (idx : (⟨S262144x1, .i32⟩ : BufTy).Contents (Elt Ideal)) (h : ∀ i, (idx i).toNat < 256)
    (i : S262144x1.Idx) : val_main_call0_v12 (F := Ideal) idx i = 1#1 := by
  unfold val_main_call0_v12
  rw [Host.reduce_eq_foldl, show val_main_call0_v11 (F := Ideal) idx = fun _ => 1#1 from funext (v11_small idx h)]
  exact foldl_andi_one _

/-! ## The take along the class axis -/

/-- The take's dimension numbers: axis 0 (the rows) is a batching axis, axis 1 (the classes) is the indexed axis,
    collapsed in the result. -/
abbrev takeRec : GatherDims S262144x256 S262144x1x1 S262144x1 :=
  gather_S262144x256_S262144x1x1_S262144x1_n_1_0_0_1_2_11

/-- Result entry (n, 0) reads row n of the operand … -/
theorem take_row {w : Nat} (ids : IVec S262144x1x1 w) (j : S262144x1.Idx) :
    (takeRec.operandIdx j ids 0).val = (j 0).val := by
  show takeRec.start j ids 0 + takeRec.batchCoord j 0 + takeRec.offCoord j 0 = _
  rw [GatherDims.start_batching _ _ _ _ (show (0 : Fin S262144x256.rank) ∈ takeRec.operandBatchingDims by decide),
    GatherDims.offCoord_eq_zero _ _ _ (fun hk => ((GatherDims.mem_sKept _ _).mp hk).2 (by decide))]
  simp only [Nat.zero_add, Nat.add_zero]
  unfold GatherDims.batchCoord
  rw [dif_pos (show (0 : Fin S262144x256.rank) ∈ takeRec.operandBatchingDims by decide)]
  rfl

/-- … at the column its start index names: entry (n, 0, 0) of the start indices, read signed and clamped to
    [0, 255]. -/
theorem take_col {w : Nat} (ids : IVec S262144x1x1 w) (j : S262144x1.Idx) :
    (takeRec.operandIdx j ids 1).val = min (ids (takeIdx j)).toInt.toNat 255 := by
  show takeRec.start j ids 1 + takeRec.batchCoord j 1 + takeRec.offCoord j 1 = _
  rw [GatherDims.batchCoord_eq_zero _ _ _ (show (1 : Fin S262144x256.rank) ∉ takeRec.operandBatchingDims by decide),
    GatherDims.offCoord_eq_zero _ _ _ (fun hk => ((GatherDims.mem_sKept _ _).mp hk).1 (by decide))]
  simp only [Nat.add_zero]
  unfold GatherDims.start
  rw [dif_pos (show (1 : Fin S262144x256.rank) ∈ takeRec.startIndexMap by decide)]
  have hsi : takeRec.siIdx j ⟨List.idxOf (1 : Fin S262144x256.rank) takeRec.startIndexMap,
      List.idxOf_lt_length_iff.2 (by decide)⟩ = takeIdx j := by
    funext b; refine Fin.ext ?_
    match b with
    | ⟨0, _⟩ => rfl
    | ⟨1, _⟩ => rfl
    | ⟨2, _⟩ => rfl
  rw [hsi]
  rfl

/-- Entry (n, 0, 0) of the reshaped label column is entry (n, 0) of the column. -/
theorem idx_v5_take (j : S262144x1.Idx) : idx_main_call0_v5 (takeIdx j) = j := by
  funext a
  match a with
  | ⟨0, _⟩ =>
    exact Fin.ext (by
      have := idx2_lt1 j
      show (((j 0).val * 1 + (j 1).val) * 1 + 0) / 1 = (j 0).val
      omega)
  | ⟨1, _⟩ =>
    exact Fin.ext (by
      have := idx2_lt1 j
      show 0 = (j 1).val
      omega)

/-- The value taken in row n is the inner product of row n of x with row idx[n] of W. -/
theorem v13_small (x : (⟨S262144x256, .f32⟩ : BufTy).Contents (Elt Ideal))
    (idx : (⟨S262144x1, .i32⟩ : BufTy).Contents (Elt Ideal))
    (W : (⟨S256x256, .f32⟩ : BufTy).Contents (Elt Ideal))
    (h : ∀ i, (idx i).toNat < 256) (i : S262144x1.Idx) :
    val_main_call0_v13 (F := Ideal) x idx W i = picked x idx W i := by
  unfold val_main_call0_v13 Host.gather
  rw [val_main_v0_apply]
  unfold picked
  refine Finset.sum_congr rfl fun k _ => ?_
  have hv5 : val_main_call0_v5 (F := Ideal) idx (takeIdx i) = idx i := by
    rw [val_main_call0_v5_apply, idx_v5_take, v4_small idx i (h i)]
  have hc : (takeRec.operandIdx i (val_main_call0_v5 (F := Ideal) idx) 1).val = (col (idx i)).val := by
    rw [take_col, hv5, col_val (h i), toInt_small (h i), Int.toNat_natCast]
    have := h i
    omega
  have el : lidx_main_v0 (takeRec.operandIdx i (val_main_call0_v5 (F := Ideal) idx)) k
      = ix2 (⟨(i 0).val, idx2_lt0 i⟩ : Fin 262144) k := funext fun a => Fin.ext (by
    match a with
    | ⟨0, _⟩ => exact take_row _ _
    | ⟨1, _⟩ => rfl)
  have er : ridx_main_v0 (takeRec.operandIdx i (val_main_call0_v5 (F := Ideal) idx)) k
      = ix2 (col (idx i)) k := funext fun a => Fin.ext (by
    match a with
    | ⟨0, _⟩ => exact hc
    | ⟨1, _⟩ => rfl)
  rw [el, er]

/-! ## The reference's result -/

/-- For labels in [0, 255] the reference computes out[n] = ∑ k, x[n, k] · W[idx[n], k]. -/
theorem ref_picked [Cert.ReferenceIdeal.Facts]
    (x : (⟨Cert.ReferenceIdeal.S262144x256, .f32⟩ : BufTy).Contents (Elt Ideal))
    (idx : (⟨Cert.ReferenceIdeal.S262144x1, .i32⟩ : BufTy).Contents (Elt Ideal))
    (W : (⟨Cert.ReferenceIdeal.S256x256, .f32⟩ : BufTy).Contents (Elt Ideal))
    (h : ∀ i, (idx i).toNat < 256) :
    Cert.ReferenceIdeal.ReadP.val_main_v1 (F := Ideal) x idx W = Cert.Pick.picked x idx W := by
  funext i
  rw [val_main_v1_apply, v12_small idx h i, select_one]
  exact v13_small x idx W h i

end Cert.Pick

end
-- ==== Proof.lean ====
/-
  The kernel and its reference compute the same column: for every row n,

      out[n] = ∑ k, x[n, k] · W[idx[n], k],

  the inner product of row n of x with the row of W that the label idx[n] names.

  The reference forms all 256 inner products of each row (one product of x with the transposed W) and takes, in each
  row, the one at the label; a take first adds 256 to a negative label and answers not-a-number outside [0, 255].
  The kernel clamps the label to [0, 255], walks the rows in 64 blocks of 4096, forms the same 256 inner products per
  row, keeps in lane c the product when the label equals c and zero otherwise, and adds the lanes. For a label in
  [0, 255] — the argument condition, beside finiteness of the float arguments — the clamp and the normalization both
  leave the label alone, exactly one lane keeps its product, and a sum of zeros and one value is that value on the
  extended reals. No finiteness of x or W is used: the two sides are the same sum of the same products.

  The modules: Spec (the common value and the class a label names), Words (label words in range), PreDecode (the
  argument condition read at one label), Payload (the value the kernel's body stores, at a row), KernelValue (blocks
  to the flat array, the arrays the region finds, the trailing reshape: the kernel's run), RefRun and RefRead (the
  reference's run and its stages), RefValue (the reference's value). The three frames: the two kernels' are the
  generated ones, the reference's is its run with the result dropped. The idealization's ledger is empty (the
  statement has `preserves_Kernel_KernelIdeal` as `True`), so that conjunct is trivial.
-/
import proofs.«409447_j35493609734520_3_alg».proof.Defs
import proofs.«409447_j35493609734520_3_alg».proof.Proof.Gen.Kernel
import proofs.«409447_j35493609734520_3_alg».proof.Proof.Gen.Kernel.Skeleton
import proofs.«409447_j35493609734520_3_alg».proof.Proof.Gen.Kernel.Launch
import proofs.«409447_j35493609734520_3_alg».proof.Proof.Gen.Kernel.Points
import proofs.«409447_j35493609734520_3_alg».proof.Proof.Gen.Kernel.Frame
import proofs.«409447_j35493609734520_3_alg».proof.Proof.Gen.KernelIdeal
import proofs.«409447_j35493609734520_3_alg».proof.Proof.Gen.KernelIdeal.Skeleton
import proofs.«409447_j35493609734520_3_alg».proof.Proof.Gen.KernelIdeal.Launch
import proofs.«409447_j35493609734520_3_alg».proof.Proof.Gen.KernelIdeal.Points
import proofs.«409447_j35493609734520_3_alg».proof.Proof.Gen.KernelIdeal.Frame
import proofs.«409447_j35493609734520_3_alg».proof.Proof.Gen.ReferenceIdeal
import proofs.«409447_j35493609734520_3_alg».proof.Proof.Gen.Pre_finite_inputs
import proofs.«409447_j35493609734520_3_alg».proof.Proof.PreDecode
import proofs.«409447_j35493609734520_3_alg».proof.Proof.KernelValue
import proofs.«409447_j35493609734520_3_alg».proof.Proof.RefValue
import Idealize.ShloMosaic.Adequacy
import Idealize.ShloMosaic.Init

noncomputable section

namespace Cert.Proof

open Idealize.ShloMosaic Idealize.SL.Sem

/-- The kernel as printed runs, and its arguments end as launched. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs too: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From arguments that agree and whose labels lie in [0, 255], both programs end with
    out[n] = ∑ k, x[n, k] · W[idx[n], k]. -/
theorem algebraic : Cert.algebraic_KernelIdeal_ReferenceIdeal := by
  intro m ρ m' ρ' hpre hagree
  have hsmall : ∀ (c : Dev Cert.KernelIdeal.nD) i,
      ((m ((c.tc : Thread Cert.KernelIdeal.nD Cert.KernelIdeal.τ).loc Cert.KernelIdeal.main_arg1)
        : Cert.KernelIdeal.S262144x1.Idx → BitVec 32) i).toNat < 256 :=
    fun c => Cert.Pick.labels_small _ _ _ (hpre c)
  refine ⟨fun c => Cert.Pick.picked
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.PickValue.run m ρ hsmall, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v1_eq, (hagree c).1, (hagree c).2.1, (hagree c).2.2]
  exact Cert.Pick.ref_picked _ _ _ (hsmall c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
